-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩

abbrev nBuf : Space → Nat
  | .hbm => 81
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44_0 : Ref sig .tc := ⟨.hbm, 61, rfl⟩
abbrev main_v44_1 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 124
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x128, .f32⟩
  | .hbm, ⟨106, _⟩ => ⟨S1600000x1, .f32⟩
  | .hbm, ⟨107, _⟩ => ⟨S1600000x128, .f32⟩
  | .hbm, ⟨108, _⟩ => ⟨S1600000x128, .f32⟩
  | .hbm, ⟨109, _⟩ => ⟨S_, .f32⟩
  | .hbm, ⟨110, _⟩ => ⟨S100000x128, .f32⟩
  | .hbm, ⟨111, _⟩ => ⟨S1600000x1, .i32⟩
  | .hbm, ⟨112, _⟩ => ⟨S100000x128, .f32⟩
  | .hbm, ⟨113, _⟩ => ⟨S100000, .f32⟩
  | .hbm, ⟨114, _⟩ => ⟨S100000x1, .f32⟩
  | .hbm, ⟨115, _⟩ => ⟨S100000x128, .f32⟩
  | .hbm, ⟨116, _⟩ => ⟨S100000x128, .f32⟩
  | .hbm, ⟨117, _⟩ => ⟨S100000x128, .f32⟩
  | .hbm, ⟨118, _⟩ => ⟨S1x128, .f32⟩
  | .hbm, ⟨119, _⟩ => ⟨S100000x128, .f32⟩
  | .hbm, ⟨120, _⟩ => ⟨S100000x128, .f32⟩
  | .hbm, ⟨121, _⟩ => ⟨S_, .f32⟩
  | .hbm, ⟨122, _⟩ => ⟨S100000x128, .f32⟩
  | .hbm, ⟨123, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KHost.lean ====
/-
  What the host operations of the kernel's program compute between its four regions, named once as functions of the
  edge list: the two endpoint rows, the wrap of a negative index, the inverse square root of the degree (with the
  self-loop), its square as a column, the edge coefficient, the message passing `A` (gather the source rows, scale,
  scatter-add into the destination rows) and a bias as a row. Then each buffer a region reads is that function of
  the launch memory and of the arrays the region before left.
-/
import proofs.«106203_j65274912964675_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

/-- The source endpoint of every edge: row 0 of the edge list. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The destination endpoint of every edge: row 1 of the edge list. -/
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative node index counts from the end: add the number of nodes to it. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- One over the square root of a node's degree, the self-loop counted: the edges scattered as ones onto their
    destinations, plus one. -/
def dinv (ei : (⟨S2x1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dstRow ei))
      (broadcastInDim S1600000 ![] bcast_S_S1600000 (constant S_ .f32 0x3F800000#32)))
    (broadcastInDim S100000 ![] bcast_S_S100000 (constant S_ .f32 0x3F800000#32)))

/-- Its square, as a column: the scale of the self-loop term. -/
def dinvSqCol (ei : (⟨S2x1600000, .i32⟩ : BufTy).Contents (Elt F)) : (⟨S100000x1, .f32⟩ : BufTy).Contents (Elt F) :=
  shapeCast _ (mulf (dinv ei) (dinv ei)) shapeCasts_S100000_S100000x1

/-- The coefficient of an edge: the product of the two endpoints' inverse square-root degrees. -/
def coef (ei : (⟨S2x1600000, .i32⟩ : BufTy).Contents (Elt F)) : (⟨S1600000, .f32⟩ : BufTy).Contents (Elt F) :=
  mulf
    (Host.gather gather_S100000_S1600000x1_S1600000_n_0_n_n_0_1_1 (dinv ei)
      (broadcastInDim S1600000x1 ![0] bcast_S1600000_S1600000x1_0 (wrap (srcRow ei))))
    (Host.gather gather_S100000_S1600000x1_S1600000_n_0_n_n_0_1_1 (dinv ei)
      (broadcastInDim S1600000x1 ![0] bcast_S1600000_S1600000x1_0 (wrap (dstRow ei))))

/-- The message passing: every edge carries its source's row of `h`, scaled by the edge's coefficient, and the rows
    are added up at the destinations, from zero. -/
def agg (ei : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstRow ei))
    (mulf
      (Host.gather gather_S100000x128_S1600000x1_S1600000x128_1_0_n_n_0_1_1128 h
        (broadcastInDim S1600000x1 ![0] bcast_S1600000_S1600000x1_0 (wrap (srcRow ei))))
      (broadcastInDim S1600000x128 ![0, 1] bcast_S1600000x1_S1600000x128_0_1
        (broadcastInDim S1600000x1 ![0] bcast_S1600000_S1600000x1_0 (coef ei))))

/-- A bias vector as a one-row array. -/
def biasRow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ) (ρ : Dev nD → PrngReg)

/-! ## Buffers a stretch of host operations leaves alone

Every operation of a stretch writes one buffer, its result. Listing the results of a stretch once, a buffer that is
not in the list holds after the stretch what it held before it. -/

/-- A one-buffer set lies in the set of a list's buffers as soon as its reference is in the list. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The results of the first stretch: the two endpoint rows, the degree and its inverse square root, the wrapped
    endpoints and the edge coefficient, with the constants they are built from. -/
abbrev res0 : List (Ref sig .tc) :=
  [main_v0, main_v1, main_v2, main_v3, main_cst, main_v4, main_cst_0, main_v5, main_v6, main_v7, main_cst_1, main_v8,
   main_v9, main_v10, main_v11, main_v12, main_c, main_v13, main_v14, main_c_2, main_v15, main_v16, main_v17, main_v18,
   main_v19, main_c_3, main_v20, main_v21, main_c_4, main_v22, main_v23, main_v24, main_v25, main_v26, main_v27]
/-- The results of the second stretch: the first layer's aggregate and its bias row, with what they are built from. -/
abbrev res1 : List (Ref sig .tc) :=
  [main_c_5, main_v29, main_v30, main_c_6, main_v31, main_v32, main_v33, main_v34, main_v35, main_v36, main_v37,
   main_v38, main_cst_7, main_v39, main_v40, main_v41, main_v42]
/-- The results of the last stretch: the second layer's aggregate and its bias row, with what they are built from. -/
abbrev res3 : List (Ref sig .tc) :=
  [main_c_8, main_v45, main_v46, main_c_9, main_v47, main_v48, main_v49, main_v50, main_v51, main_v52, main_v53,
   main_v54, main_cst_10, main_v55, main_v56, main_v57, main_v58]

theorem hostOps0_res : (hostOps0 : List (HloOp τ sig (Elt F))).Forall fun op =>
    op.writes ⊆ (res0.map (Proc.devRef (τ := τ) .tc)).toFinset := by
  repeat' apply And.intro
  all_goals exact single_sub_of_mem (by decide)
theorem hostOps1_res : (hostOps1 : List (HloOp τ sig (Elt F))).Forall fun op =>
    op.writes ⊆ (res1.map (Proc.devRef (τ := τ) .tc)).toFinset := by
  repeat' apply And.intro
  all_goals exact single_sub_of_mem (by decide)
theorem hostOps3_res : (hostOps3 : List (HloOp τ sig (Elt F))).Forall fun op =>
    op.writes ⊆ (res3.map (Proc.devRef (τ := τ) .tc)).toFinset := by
  repeat' apply And.intro
  all_goals exact single_sub_of_mem (by decide)

theorem W1_keeps (c : Dev nD) (r : Ref sig .tc) (h : r ∉ res0) :
    W1 m ρ c (Proc.devRef .tc r) = m ((c : Thread nD τ).loc r) :=
  StableHlo.after_of_writes_sub hostOps0 _ hostOps0_res h
theorem W3_keeps (c : Dev nD) (r : Ref sig .tc) (h : r ∉ res1) :
    W3 m ρ c (Proc.devRef .tc r) = W2 m ρ c (Proc.devRef .tc r) :=
  StableHlo.after_of_writes_sub hostOps1 _ hostOps1_res h
theorem W6_keeps (c : Dev nD) (r : Ref sig .tc) (h : r ∉ res3) :
    W6 m ρ c (Proc.devRef .tc r) = W5 m ρ c (Proc.devRef .tc r) :=
  StableHlo.after_of_writes_sub hostOps3 _ hostOps3_res h

/-! ## What the first region finds -/

theorem W1_arg0 (c : Dev nD) : W1 m ρ c (Proc.devRef .tc main_arg0) = m ((c : Thread nD τ).loc main_arg0) :=
  W1_keeps m ρ c main_arg0 (by decide)
theorem W1_arg2 (c : Dev nD) : W1 m ρ c (Proc.devRef .tc main_arg2) = m ((c : Thread nD τ).loc main_arg2) :=
  W1_keeps m ρ c main_arg2 (by decide)

/-! ## What the first stretch of host operations computes from the edge list -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results
  rfl

theorem W1_v3 (c : Dev nD) : W1 m ρ c (Proc.devRef .tc main_v3) = dstRow (m ((c : Thread nD τ).loc main_arg1)) := by
  show StableHlo.after hostOps0 (W0 m ρ c) (Proc.devRef .tc main_v3) = _
  after_results
  rfl

set_option maxHeartbeats 400000 in
theorem W1_v12 (c : Dev nD) : W1 m ρ c (Proc.devRef .tc main_v12) = dinvSqCol (m ((c : Thread nD τ).loc main_arg1)) := by
  show StableHlo.after hostOps0 (W0 m ρ c) (Proc.devRef .tc main_v12) = _
  after_results
  unfold dinvSqCol dinv dstRow
  rfl

set_option maxHeartbeats 400000 in
theorem W1_v27 (c : Dev nD) : W1 m ρ c (Proc.devRef .tc main_v27) = coef (m ((c : Thread nD τ).loc main_arg1)) := by
  show StableHlo.after hostOps0 (W0 m ρ c) (Proc.devRef .tc main_v27) = _
  after_results_simp
  unfold coef dinv wrap srcRow dstRow
  rfl

/-! ## Through the first region: it writes only its two outputs, so what the host computed before it is still there -/

theorem W2_v1 (c : Dev nD) : W2 m ρ c (Proc.devRef .tc main_v1) = srcRow (m ((c : Thread nD τ).loc main_arg1)) :=
  (W2_of_ne m ρ c main_v1 (by decide)).trans (W1_v1 m ρ c)
theorem W2_v3 (c : Dev nD) : W2 m ρ c (Proc.devRef .tc main_v3) = dstRow (m ((c : Thread nD τ).loc main_arg1)) :=
  (W2_of_ne m ρ c main_v3 (by decide)).trans (W1_v3 m ρ c)
theorem W2_v27 (c : Dev nD) : W2 m ρ c (Proc.devRef .tc main_v27) = coef (m ((c : Thread nD τ).loc main_arg1)) :=
  (W2_of_ne m ρ c main_v27 (by decide)).trans (W1_v27 m ρ c)
theorem W2_arg3 (c : Dev nD) : W2 m ρ c (Proc.devRef .tc main_arg3) = m ((c : Thread nD τ).loc main_arg3) :=
  (W2_of_ne m ρ c main_arg3 (by decide)).trans (W1_keeps m ρ c main_arg3 (by decide))
theorem W2_arg4 (c : Dev nD) : W2 m ρ c (Proc.devRef .tc main_arg4) = m ((c : Thread nD τ).loc main_arg4) :=
  (W2_of_ne m ρ c main_arg4 (by decide)).trans (W1_keeps m ρ c main_arg4 (by decide))
theorem W2_arg5 (c : Dev nD) : W2 m ρ c (Proc.devRef .tc main_arg5) = m ((c : Thread nD τ).loc main_arg5) :=
  (W2_of_ne m ρ c main_arg5 (by decide)).trans (W1_keeps m ρ c main_arg5 (by decide))
/-- The squared inverse degree is an input of the first region, which leaves it as it found it. -/
theorem W2_v12 (c : Dev nD) : W2 m ρ c (Proc.devRef .tc main_v12) = dinvSqCol (m ((c : Thread nD τ).loc main_arg1)) :=
  ((W2_arr m ρ c 2).trans (((dat0 (V1 m ρ) c).arrAt_in 2 rfl _).trans (A_eq0 (V1 m ρ) c 2))).trans (W1_v12 m ρ c)

/-! ## What the second region finds -/

set_option maxHeartbeats 400000 in
theorem W3_v41 (c : Dev nD) : W3 m ρ c (Proc.devRef .tc main_v41)
    = agg (m ((c : Thread nD τ).loc main_arg1)) (W2 m ρ c (Proc.devRef .tc main_v28_0)) := by
  show StableHlo.after hostOps1 (W2 m ρ c) (Proc.devRef .tc main_v41) = _
  after_results
  rw [W2_v1 m ρ c, W2_v3 m ρ c, W2_v27 m ρ c]
  unfold agg wrap
  rfl
theorem W3_v28_1 (c : Dev nD) : W3 m ρ c (Proc.devRef .tc main_v28_1) = W2 m ρ c (Proc.devRef .tc main_v28_1) :=
  W3_keeps m ρ c main_v28_1 (by decide)
set_option maxHeartbeats 400000 in
theorem W3_v42 (c : Dev nD) : W3 m ρ c (Proc.devRef .tc main_v42) = biasRow (m ((c : Thread nD τ).loc main_arg3)) := by
  show StableHlo.after hostOps1 (W2 m ρ c) (Proc.devRef .tc main_v42) = _
  after_results
  rw [W2_arg3 m ρ c]
  rfl

/-! ## What the third region finds (no host operation stands between the second and the third) -/

theorem W4_arg4 (c : Dev nD) : W4 m ρ c (Proc.devRef .tc main_arg4) = m ((c : Thread nD τ).loc main_arg4) :=
  (W4_of_ne m ρ c main_arg4 (by decide)).trans ((W3_keeps m ρ c main_arg4 (by decide)).trans (W2_arg4 m ρ c))
theorem W4_v12 (c : Dev nD) : W4 m ρ c (Proc.devRef .tc main_v12) = dinvSqCol (m ((c : Thread nD τ).loc main_arg1)) :=
  (W4_of_ne m ρ c main_v12 (by decide)).trans ((W3_keeps m ρ c main_v12 (by decide)).trans (W2_v12 m ρ c))

/-! ## Through the second stretch and the next two regions: none of them writes what the first stretch computed -/

theorem W5_v1 (c : Dev nD) : W5 m ρ c (Proc.devRef .tc main_v1) = srcRow (m ((c : Thread nD τ).loc main_arg1)) :=
  (W5_of_ne m ρ c main_v1 (by decide)).trans ((W4_of_ne m ρ c main_v1 (by decide)).trans
    ((W3_keeps m ρ c main_v1 (by decide)).trans (W2_v1 m ρ c)))
theorem W5_v3 (c : Dev nD) : W5 m ρ c (Proc.devRef .tc main_v3) = dstRow (m ((c : Thread nD τ).loc main_arg1)) :=
  (W5_of_ne m ρ c main_v3 (by decide)).trans ((W4_of_ne m ρ c main_v3 (by decide)).trans
    ((W3_keeps m ρ c main_v3 (by decide)).trans (W2_v3 m ρ c)))
theorem W5_v27 (c : Dev nD) : W5 m ρ c (Proc.devRef .tc main_v27) = coef (m ((c : Thread nD τ).loc main_arg1)) :=
  (W5_of_ne m ρ c main_v27 (by decide)).trans ((W4_of_ne m ρ c main_v27 (by decide)).trans
    ((W3_keeps m ρ c main_v27 (by decide)).trans (W2_v27 m ρ c)))
theorem W5_arg5 (c : Dev nD) : W5 m ρ c (Proc.devRef .tc main_arg5) = m ((c : Thread nD τ).loc main_arg5) :=
  (W5_of_ne m ρ c main_arg5 (by decide)).trans ((W4_of_ne m ρ c main_arg5 (by decide)).trans
    ((W3_keeps m ρ c main_arg5 (by decide)).trans (W2_arg5 m ρ c)))

/-! ## What the fourth region finds -/

set_option maxHeartbeats 400000 in
theorem W6_v57 (c : Dev nD) : W6 m ρ c (Proc.devRef .tc main_v57)
    = agg (m ((c : Thread nD τ).loc main_arg1)) (W5 m ρ c (Proc.devRef .tc main_v44_0)) := by
  show StableHlo.after hostOps3 (W5 m ρ c) (Proc.devRef .tc main_v57) = _
  after_results
  rw [W5_v1 m ρ c, W5_v3 m ρ c, W5_v27 m ρ c]
  unfold agg wrap
  rfl
theorem W6_v44_1 (c : Dev nD) : W6 m ρ c (Proc.devRef .tc main_v44_1) = W5 m ρ c (Proc.devRef .tc main_v44_1) :=
  W6_keeps m ρ c main_v44_1 (by decide)
set_option maxHeartbeats 400000 in
theorem W6_v58 (c : Dev nD) : W6 m ρ c (Proc.devRef .tc main_v58) = biasRow (m ((c : Thread nD τ).loc main_arg5)) := by
  show StableHlo.after hostOps3 (W5 m ρ c) (Proc.devRef .tc main_v58) = _
  after_results
  rw [W5_arg5 m ρ c]
  rfl

end Cert.KernelIdeal.Hand

end
-- ==== Proof.Spec.lean ====
/-
  The mathematics both programs compute, stated once over the literal shapes: one graph-convolution layer is
  `max (A (X·W) + (X·W) ⊙ d² + b, 0)`, where `X·W` is the dense product, `d²` a per-row scale, `b` a per-column
  bias and `A` the message passing over the edges (a gather of rows, a scale, a scatter-add), which the two programs
  share operation by operation and which is therefore never opened here.
-/
import Idealize.ShloMosaic.PureOps.Ideal
import Idealize.ShloMosaic.Lib.ValueIdx

noncomputable section

namespace Cert.Gcn

open Idealize.ShloMosaic Idealize.ShloMosaic.ValueIdx

/-- Node features: 100000 nodes by 128 channels. -/
abbrev SNxD : Shape := ⟨2, ![100000, 128]⟩
/-- A weight matrix. -/
abbrev SDxD : Shape := ⟨2, ![128, 128]⟩
/-- One scalar per node, as a column. -/
abbrev SNx1 : Shape := ⟨2, ![100000, 1]⟩
/-- One scalar per channel, as a row. -/
abbrev S1xD : Shape := ⟨2, ![1, 128]⟩

/-- The node (row) of an entry of a feature array. -/
abbrev row (i : SNxD.Idx) : Fin 100000 := ⟨(i 0).val, (i 0).isLt⟩
/-- The channel (column) of an entry of a feature array. -/
abbrev col (i : SNxD.Idx) : Fin 128 := ⟨(i 1).val, (i 1).isLt⟩

/-- The dense product `X·W`: entry (n, j) is the sum over k of X(n, k)·W(k, j). -/
def lin (x : SNxD.Idx → EReal) (w : SDxD.Idx → EReal) : SNxD.Idx → EReal :=
  fun i => ∑ k : Fin 128, x (ix2 (row i) k) * w (ix2 k (col i))

/-- The self-loop term: row n of `h` scaled by the n-th entry of the column `d`. -/
def selfTerm (h : SNxD.Idx → EReal) (d : SNx1.Idx → EReal) : SNxD.Idx → EReal :=
  fun i => h i * d (ix2 (row i) (0 : Fin 1))

/-- The layer's last step: aggregate plus self-loop term plus the bias of the entry's channel, clamped at zero. -/
def epi (a s : SNxD.Idx → EReal) (b : S1xD.Idx → EReal) : SNxD.Idx → EReal :=
  fun i => max (a i + s i + b (ix2 (0 : Fin 1) (col i))) 0

end Cert.Gcn

end
-- ==== Proof.Region0.lean ====
/-
  The first dense-product region, read as whole arrays: after its twenty row blocks have been written back, the first output array holds the product X·W of the two arrays the region found, and the second that product with row n scaled by the n-th entry of the column it found.
-/
import proofs.«106203_j65274912964675_1_alg».proof.Proof.Gen.KernelIdeal.Frame
import proofs.«106203_j65274912964675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

-- the TensorCore's buffer contents when the region is entered: a parameter, as in the frame
variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-! ## The body's arithmetic at an entry -/

/-- The left operand of the block product is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index; -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index … -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

set_option maxHeartbeats 400000 in
/-- Entry (p, q) of the block product: the rounding to the narrower format is the identity on the extended reals
    and the accumulator starts at zero, so it is the plain sum over k of x(p, k)·w(k, q). -/
theorem pay1_apply (x : Vec Ideal S5000x128 .f32) (w : Vec Ideal S128x128 .f32) (p : Fin 5000) (q : Fin 128) :
    k0_pay1 (F := Ideal) x w (ValueIdx.ix2 p q) = ∑ k : Fin 128, x (ValueIdx.ix2 p k) * w (ValueIdx.ix2 k q) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_contr _ _).trans hk
    | ⟨1, _⟩ => exact rhs_col _ _)
  rw [ValueIdx.truncf_apply, ValueIdx.truncf_apply, el, er]

set_option maxHeartbeats 400000 in
/-- Entry (p, q) of the scaled block product: the product's entry times the p-th entry of the column. -/
theorem pay2_apply (x : Vec Ideal S5000x128 .f32) (w : Vec Ideal S128x128 .f32) (d : Vec Ideal S5000x1 .f32) (p : Fin 5000) (q : Fin 128) :
    k0_pay2 (F := Ideal) x w d (ValueIdx.ix2 p q) = k0_pay1 (F := Ideal) x w (ValueIdx.ix2 p q) * d (ValueIdx.ix2 p (0 : Fin 1)) := by
  unfold k0_pay2
  rw [ValueIdx.mulf_apply, shapeCast_self]
  congr 1
  refine broadcastTo_apply d broadcasts_S5000x1_S5000x128 (ValueIdx.ix2 p q) (ValueIdx.ix2 p (0 : Fin 1)) fun a => ?_
  match a with
  | ⟨0, _⟩ => show p.val = if (5000 : Nat) = 1 then 0 else p.val; rw [if_neg (by decide)]
  | ⟨1, _⟩ => show (0 : Nat) = if (1 : Nat) = 1 then 0 else q.val; rw [if_pos rfl]

/-! ## The windows over the grid -/

/-- The printed index maps, decided over the twenty points: the input rows, the column and both outputs are at row
    block t, column block 0; the weight is whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

set_option maxHeartbeats 400000 in
/-- The block product at point t, entry (p, q), is the whole product at row 5000·t + p, column q: the input block's
    row p is the array's row 5000·t + p, and the weight's block is the weight. -/
theorem blk_lin (c : Dev nD) (t : Fin cfg0.N) (p : Fin 5000) (q : Fin 128) (i : S100000x128.Idx)
    (hi0 : (i 0).val = t.val * 5000 + p.val) (hi1 : (i 1).val = q.val) :
    k0_pay1 (F := Ideal) (iblk0 V c 0 t) (iblk0 V c 1 t) (ValueIdx.ix2 p q) = Cert.Gcn.lin (V c main_arg0) (V c main_arg2) i := by
  obtain ⟨e00, e01, e10, e11, -⟩ := idx_facts t
  refine (pay1_apply (iblk0 V c 0 t) (iblk0 V c 1 t) p q).trans ?_
  unfold Cert.Gcn.lin
  refine Finset.sum_congr rfl fun k _ => ?_
  congr 1
  · show V c main_arg0 (((cfg0.win 0).blk t).view.emb (ValueIdx.ix2 p k)) = V c main_arg0 (ValueIdx.ix2 (Cert.Gcn.row i) k)
    refine congrArg _ (funext fun a => Fin.ext ?_)
    match a with
    | ⟨0, _⟩ => show win0_0.index t (0 : Fin 2) * 5000 + 1 * p.val = (i 0).val; rw [e00, hi0]; omega
    | ⟨1, _⟩ => show win0_0.index t (1 : Fin 2) * 128 + 1 * k.val = k.val; rw [e01]; omega
  · show V c main_arg2 (((cfg0.win 1).blk t).view.emb (ValueIdx.ix2 k q)) = V c main_arg2 (ValueIdx.ix2 k (Cert.Gcn.col i))
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = (i 1).val; rw [e11, hi1]; omega

/-! ## What each point writes back -/

set_option maxHeartbeats 400000 in
/-- What point t writes back to the product array is block t of the whole product. -/
theorem flushed3_eq (c : Dev nD) (t : Fin cfg0.N) :
    (dat0 (F := Ideal) V c).flushed 3 t = ((cfg0.win 3).blk t).view.read (Elt Ideal) (Cert.Gcn.lin (V c main_arg0) (V c main_arg2)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨-, -, -, -, -, -, e30, e31, -⟩ := idx_facts t
  funext j
  obtain ⟨p, q, rfl⟩ : ∃ (p : Fin 5000) (q : Fin 128), j = ValueIdx.ix2 p q := ⟨j 0, j 1, ValueIdx.eq_ix2 j⟩
  show k0_pay1 (F := Ideal) (iblk0 V c 0 t) (iblk0 V c 1 t) (ValueIdx.ix2 p q) = Cert.Gcn.lin (V c main_arg0) (V c main_arg2) (((cfg0.win 3).blk t).view.emb (ValueIdx.ix2 p q))
  refine blk_lin V c t p q _ ?_ ?_
  · show win0_3.index t (0 : Fin 2) * 5000 + 1 * p.val = t.val * 5000 + p.val; rw [e30]; omega
  · show win0_3.index t (1 : Fin 2) * 128 + 1 * q.val = q.val; rw [e31]; omega

set_option maxHeartbeats 400000 in
/-- What point t writes back to the scaled array is block t of the whole product with each row scaled by the
    column's entry of that row: the column's block at t is rows 5000·t … of the column. -/
theorem flushed4_eq (c : Dev nD) (t : Fin cfg0.N) :
    (dat0 (F := Ideal) V c).flushed 4 t = ((cfg0.win 4).blk t).view.read (Elt Ideal)
      (Cert.Gcn.selfTerm (Cert.Gcn.lin (V c main_arg0) (V c main_arg2)) (V c main_v12)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S5000x1) hz]
  obtain ⟨-, -, -, -, e20, e21, -, -, e40, e41⟩ := idx_facts t
  funext j
  obtain ⟨p, q, rfl⟩ : ∃ (p : Fin 5000) (q : Fin 128), j = ValueIdx.ix2 p q := ⟨j 0, j 1, ValueIdx.eq_ix2 j⟩
  show k0_pay2 (F := Ideal) (iblk0 V c 0 t) (iblk0 V c 1 t) (iblk0 V c 2 t) (ValueIdx.ix2 p q)
    = Cert.Gcn.selfTerm (Cert.Gcn.lin (V c main_arg0) (V c main_arg2)) (V c main_v12) (((cfg0.win 4).blk t).view.emb (ValueIdx.ix2 p q))
  refine (pay2_apply (iblk0 V c 0 t) (iblk0 V c 1 t) (iblk0 V c 2 t) p q).trans ?_
  unfold Cert.Gcn.selfTerm
  congr 1
  · refine blk_lin V c t p q _ ?_ ?_
    · show win0_4.index t (0 : Fin 2) * 5000 + 1 * p.val = t.val * 5000 + p.val; rw [e40]; omega
    · show win0_4.index t (1 : Fin 2) * 128 + 1 * q.val = q.val; rw [e41]; omega
  · show V c main_v12 (((cfg0.win 2).blk t).view.emb (ValueIdx.ix2 p (0 : Fin 1)))
      = V c main_v12 (ValueIdx.ix2 (Cert.Gcn.row (((cfg0.win 4).blk t).view.emb (ValueIdx.ix2 p q))) (0 : Fin 1))
    refine congrArg _ (funext fun a => Fin.ext ?_)
    match a with
    | ⟨0, _⟩ => show win0_2.index t (0 : Fin 2) * 5000 + 1 * p.val = win0_4.index t (0 : Fin 2) * 5000 + 1 * p.val; rw [e20, e40]
    | ⟨1, _⟩ => show win0_2.index t (1 : Fin 2) * 1 + 1 * 0 = 0; rw [e21]

/-! ## The blocks cover the arrays -/

/-- An entry is in point t's block of the product array iff each coordinate is in the block's range. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v28_0).slice (win0_3.rect t)).set ↔ _
  rw [View.set_slice_whole, Rect.mem_set_unit]
  exact Iff.rfl

/-- The same for the scaled array. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28_1).slice (win0_4.rect t)).set ↔ _
  rw [View.set_slice_whole, Rect.mem_set_unit]
  exact Iff.rfl

/-- The point whose row block holds row r is r / 5000. -/
abbrev pointOf (i : S100000x128.Idx) : Fin cfg0.N :=
  ⟨(i 0).val / 5000, Nat.lt_of_lt_of_eq (by have h : (i 0).val < 100000 := (i 0).isLt; omega) N_0.symm⟩

/-- Every entry of the product array is in the block of the point of its row. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨-, -, -, -, -, -, e30, e31, -⟩ := idx_facts (pointOf i)
  refine ⟨pointOf i, flush0_3 _, ?_⟩
  rw [mem_blk3]
  intro a
  match a with
  | ⟨0, _⟩ =>
    show win0_3.index (pointOf i) (0 : Fin 2) * 5000 ≤ (i 0).val ∧ (i 0).val < win0_3.index (pointOf i) (0 : Fin 2) * 5000 + 5000
    rw [e30]; show (i 0).val / 5000 * 5000 ≤ (i 0).val ∧ (i 0).val < (i 0).val / 5000 * 5000 + 5000; omega
  | ⟨1, _⟩ =>
    show win0_3.index (pointOf i) (1 : Fin 2) * 128 ≤ (i 1).val ∧ (i 1).val < win0_3.index (pointOf i) (1 : Fin 2) * 128 + 128
    rw [e31]; omega

/-- The same for the scaled array. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨-, -, -, -, -, -, -, -, e40, e41⟩ := idx_facts (pointOf i)
  refine ⟨pointOf i, flush0_4 _, ?_⟩
  rw [mem_blk4]
  intro a
  match a with
  | ⟨0, _⟩ =>
    show win0_4.index (pointOf i) (0 : Fin 2) * 5000 ≤ (i 0).val ∧ (i 0).val < win0_4.index (pointOf i) (0 : Fin 2) * 5000 + 5000
    rw [e40]; show (i 0).val / 5000 * 5000 ≤ (i 0).val ∧ (i 0).val < (i 0).val / 5000 * 5000 + 5000; omega
  | ⟨1, _⟩ =>
    show win0_4.index (pointOf i) (1 : Fin 2) * 128 ≤ (i 1).val ∧ (i 1).val < win0_4.index (pointOf i) (1 : Fin 2) * 128 + 128
    rw [e41]; omega

/-! ## The arrays after the region -/

/-- The product array after the region. -/
theorem h_array0 (c : Dev nD) : (dat0 (F := Ideal) V c).arrAt 3 cfg0.N = Cert.Gcn.lin (V c main_arg0) (V c main_arg2) :=
  (dat0 (F := Ideal) V c).arrAt_eq_of_cover 3 (Cert.Gcn.lin (V c main_arg0) (V c main_arg2)) (fun t _ => flushed3_eq V c t) cover3

/-- The scaled product array after the region. -/
theorem s_array0 (c : Dev nD) : (dat0 (F := Ideal) V c).arrAt 4 cfg0.N
    = Cert.Gcn.selfTerm (Cert.Gcn.lin (V c main_arg0) (V c main_arg2)) (V c main_v12) :=
  (dat0 (F := Ideal) V c).arrAt_eq_of_cover 4 (Cert.Gcn.selfTerm (Cert.Gcn.lin (V c main_arg0) (V c main_arg2)) (V c main_v12))
    (fun t _ => flushed4_eq V c t) cover4

end Cert.KernelIdeal.Region0

end
-- ==== Proof.Region1.lean ====
/-
  The first layer's closing region, read as a whole array: after its twenty row blocks have been written back, the output array holds, entry by entry, the aggregate plus the self-loop term plus the channel's bias, clamped at zero.
-/
import proofs.«106203_j65274912964675_1_alg».proof.Proof.Gen.KernelIdeal.Frame
import proofs.«106203_j65274912964675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

-- the TensorCore's buffer contents when the region is entered: a parameter, as in the frame
variable (V : (c : Dev nD) → (b : Ref sig .tc) → Buf (Elt Ideal) ((c : Thread nD τ).loc b))

open Idealize.ShloMosaic.ValueIdx

/-- The zero offset of a whole-buffer access. -/
theorem hz : (![0, 0] : Fin 2 → Nat) = fun _ => 0 := funext fun a => by fin_cases a <;> rfl

set_option maxHeartbeats 400000 in
/-- The body's arithmetic at one entry of a block: the two input entries added, the bias of the entry's channel added,
    the sum clamped at zero. -/
theorem pay_apply (b : Vec Ideal S1x128 .f32) (a s : Vec Ideal S5000x128 .f32) (p : Fin 5000) (q : Fin 128) :
    k1_pay1 (F := Ideal) b a s (ix2 p q) = max (a (ix2 p q) + s (ix2 p q) + b (ix2 (0 : Fin 1) q)) 0 := by
  unfold k1_pay1
  simp only [shapeCast_self]
  rw [maximumf_apply, addf_apply, addf_apply, broadcast_apply]
  rw [broadcastTo_apply b broadcasts_S1x128_S5000x128 (ix2 p q) (ix2 (0 : Fin 1) q) (fun a => by
    match a with
    | ⟨0, _⟩ => rfl
    | ⟨1, _⟩ => rfl)]
  rw [show (Scalar.ofBits (F := Ideal) .f32 0x00000000#32) = (0 : EReal) from Ideal.ofBits_zero_f32]

set_option maxHeartbeats 400000 in
/-- The printed index maps over the grid: at point `t` the three row-blocked windows are on row block `t`, column
    block 0, and the bias window is on its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The same at an entry given as one index: the bias is read at the entry's channel. -/
theorem pay_at (b : Vec Ideal S1x128 .f32) (a s : Vec Ideal S5000x128 .f32) (j : S5000x128.Idx) :
    k1_pay1 (F := Ideal) b a s j = max (a j + s j + b (ix2 (0 : Fin 1) (⟨(j 1).val, (j 1).isLt⟩ : Fin 128))) 0 := by
  obtain ⟨p, q, rfl⟩ : ∃ (p : Fin 5000) (q : Fin 128), j = ix2 p q := ⟨j 0, j 1, eq_ix2 j⟩
  exact pay_apply b a s p q

set_option maxHeartbeats 400000 in
/-- What point `t` writes back is block `t` of the closing step of the three arrays as the region finds them. -/
theorem flushed_eq (c : Dev nD) (t : Fin cfg1.N) :
    (dat1 (F := Ideal) V c).flushed 3 t
      = ((cfg1.win 3).blk t).view.read (Elt Ideal) (Cert.Gcn.epi (V c main_v41) (V c main_v28_1) (V c main_v42)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_at (iblk1 V c 2 t) (iblk1 V c 0 t) (iblk1 V c 1 t) j).trans ?_
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix2 (0 : Fin 1) (⟨(j 1).val, (j 1).isLt⟩ : Fin 128))
      = ix2 (0 : Fin 1) (Cert.Gcn.col (((cfg1.win 3).blk t).view.emb j)) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  have ea : iblk1 V c 0 t j = V c main_v41 (((cfg1.win 3).blk t).view.emb j) := by
    show V c main_v41 (((cfg1.win 0).blk t).view.emb j) = _
    rw [h0]
  have eb : iblk1 V c 1 t j = V c main_v28_1 (((cfg1.win 3).blk t).view.emb j) := by
    show V c main_v28_1 (((cfg1.win 1).blk t).view.emb j) = _
    rw [h1]
  have ec : iblk1 V c 2 t (ix2 (0 : Fin 1) (⟨(j 1).val, (j 1).isLt⟩ : Fin 128))
      = V c main_v42 (ix2 (0 : Fin 1) (Cert.Gcn.col (((cfg1.win 3).blk t).view.emb j))) := by
    show V c main_v42 (((cfg1.win 2).blk t).view.emb (ix2 (0 : Fin 1) (⟨(j 1).val, (j 1).isLt⟩ : Fin 128))) = _
    rw [h2]
  rw [ea, eb, ec]
  rfl

/-- An entry of the output array is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v43).slice (win1_3.rect t)).set ↔ _
  rw [View.set_slice_whole, Rect.mem_set_unit]
  exact Iff.rfl

set_option maxHeartbeats 400000 in
/-- Every entry of the output array is written back: row `r` is in the block of point `r / 5000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, -, -, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win1_3.index ⟨(i 0).val / 5000, ht⟩ (1 : Fin 2) * 128 ≤ (i 1).val
      ∧ (i 1).val < win1_3.index ⟨(i 0).val / 5000, ht⟩ (1 : Fin 2) * 128 + 128
    rw [e7]
    omega

/-- The layer's output array after the region. -/
theorem o_array1 (c : Dev nD) : (dat1 (F := Ideal) V c).arrAt 3 cfg1.N = Cert.Gcn.epi (V c main_v41) (V c main_v28_1) (V c main_v42) :=
  (dat1 (F := Ideal) V c).arrAt_eq_of_cover 3 (Cert.Gcn.epi (V c main_v41) (V c main_v28_1) (V c main_v42))
    (fun t _ => flushed_eq V c t) cover

end Cert.KernelIdeal.Region1

end
-- ==== Proof.Region2.lean ====
/-
  The second dense-product region, read as whole arrays: the first output array holds the product of the first layer's output with the second weight matrix, the second that product with row n scaled by the n-th entry of the column it found.
-/
import proofs.«106203_j65274912964675_1_alg».proof.Proof.Gen.KernelIdeal.Frame
import proofs.«106203_j65274912964675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

-- the TensorCore's buffer contents when the region is entered: a parameter, as in the frame
variable (V : (c : Dev nD) → (b : Ref sig .tc) → Buf (Elt Ideal) ((c : Thread nD τ).loc b))

/-- The zero offset of a whole-buffer access. -/
theorem hz : (![0, 0] : Fin 2 → Nat) = fun _ => 0 := funext fun a => by fin_cases a <;> rfl

/-! ## The body's arithmetic at an entry -/

/-- The left operand of the block product is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the summation index; -/
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the summation index … -/
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

set_option maxHeartbeats 400000 in
/-- Entry (p, q) of the block product: the reshape to the same shape and the rounding to the narrower format are the
    identity on the extended reals and the accumulator starts at zero, so it is the plain sum over k of x(p, k)·w(k, q). -/
theorem pay1_apply (x : Vec Ideal S5000x128 .f32) (w : Vec Ideal S128x128 .f32) (p : Fin 5000) (q : Fin 128) :
    k2_pay1 (F := Ideal) x w (ValueIdx.ix2 p q) = ∑ k : Fin 128, x (ValueIdx.ix2 p k) * w (ValueIdx.ix2 k q) := by
  unfold k2_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_contr _ _).trans hk
    | ⟨1, _⟩ => exact rhs_col _ _)
  rw [ValueIdx.truncf_apply, ValueIdx.truncf_apply, el, er, shapeCast_self]

set_option maxHeartbeats 400000 in
/-- Entry (p, q) of the scaled block product: the product's entry times the p-th entry of the column. -/
theorem pay2_apply (x : Vec Ideal S5000x128 .f32) (w : Vec Ideal S128x128 .f32) (d : Vec Ideal S5000x1 .f32) (p : Fin 5000) (q : Fin 128) :
    k2_pay2 (F := Ideal) x w d (ValueIdx.ix2 p q) = k2_pay1 (F := Ideal) x w (ValueIdx.ix2 p q) * d (ValueIdx.ix2 p (0 : Fin 1)) := by
  unfold k2_pay2
  rw [ValueIdx.mulf_apply, shapeCast_self]
  congr 1
  refine broadcastTo_apply d broadcasts_S5000x1_S5000x128 (ValueIdx.ix2 p q) (ValueIdx.ix2 p (0 : Fin 1)) fun a => ?_
  match a with
  | ⟨0, _⟩ => show p.val = if (5000 : Nat) = 1 then 0 else p.val; rw [if_neg (by decide)]
  | ⟨1, _⟩ => show (0 : Nat) = if (1 : Nat) = 1 then 0 else q.val; rw [if_pos rfl]

/-! ## The windows over the grid -/

/-- The printed index maps, decided over the twenty points: the input rows, the column and both outputs are at row
    block t, column block 0; the weight is whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

set_option maxHeartbeats 400000 in
/-- The block product at point t, entry (p, q), is the whole product at row 5000·t + p, column q: the input block's
    row p is the array's row 5000·t + p, and the weight's block is the weight. -/
theorem blk_lin (c : Dev nD) (t : Fin cfg2.N) (p : Fin 5000) (q : Fin 128) (i : S100000x128.Idx)
    (hi0 : (i 0).val = t.val * 5000 + p.val) (hi1 : (i 1).val = q.val) :
    k2_pay1 (F := Ideal) (iblk2 V c 0 t) (iblk2 V c 1 t) (ValueIdx.ix2 p q) = Cert.Gcn.lin (V c main_v43) (V c main_arg4) i := by
  obtain ⟨e00, e01, e10, e11, -⟩ := idx_facts t
  refine (pay1_apply (iblk2 V c 0 t) (iblk2 V c 1 t) p q).trans ?_
  unfold Cert.Gcn.lin
  refine Finset.sum_congr rfl fun k _ => ?_
  congr 1
  · show V c main_v43 (((cfg2.win 0).blk t).view.emb (ValueIdx.ix2 p k)) = V c main_v43 (ValueIdx.ix2 (Cert.Gcn.row i) k)
    refine congrArg _ (funext fun a => Fin.ext ?_)
    match a with
    | ⟨0, _⟩ => show win2_0.index t (0 : Fin 2) * 5000 + 1 * p.val = (i 0).val; rw [e00, hi0]; omega
    | ⟨1, _⟩ => show win2_0.index t (1 : Fin 2) * 128 + 1 * k.val = k.val; rw [e01]; omega
  · show V c main_arg4 (((cfg2.win 1).blk t).view.emb (ValueIdx.ix2 k q)) = V c main_arg4 (ValueIdx.ix2 k (Cert.Gcn.col i))
    refine congrArg _ (funext fun a => Fin.ext ?_)
    match a with
    | ⟨0, _⟩ => show win2_1.index t (0 : Fin 2) * 128 + 1 * k.val = k.val; rw [e10]; omega
    | ⟨1, _⟩ => show win2_1.index t (1 : Fin 2) * 128 + 1 * q.val = (i 1).val; rw [e11, hi1]; omega

/-! ## What each point writes back -/

set_option maxHeartbeats 400000 in
/-- What point t writes back to the product array is block t of the whole product. -/
theorem flushed3_eq (c : Dev nD) (t : Fin cfg2.N) :
    (dat2 (F := Ideal) V c).flushed 3 t = ((cfg2.win 3).blk t).view.read (Elt Ideal) (Cert.Gcn.lin (V c main_v43) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  obtain ⟨-, -, -, -, -, -, e30, e31, -⟩ := idx_facts t
  funext j
  obtain ⟨p, q, rfl⟩ : ∃ (p : Fin 5000) (q : Fin 128), j = ValueIdx.ix2 p q := ⟨j 0, j 1, ValueIdx.eq_ix2 j⟩
  show k2_pay1 (F := Ideal) (iblk2 V c 0 t) (iblk2 V c 1 t) (ValueIdx.ix2 p q) = Cert.Gcn.lin (V c main_v43) (V c main_arg4) (((cfg2.win 3).blk t).view.emb (ValueIdx.ix2 p q))
  refine blk_lin V c t p q _ ?_ ?_
  · show win2_3.index t (0 : Fin 2) * 5000 + 1 * p.val = t.val * 5000 + p.val; rw [e30]; omega
  · show win2_3.index t (1 : Fin 2) * 128 + 1 * q.val = q.val; rw [e31]; omega

set_option maxHeartbeats 400000 in
/-- What point t writes back to the scaled array is block t of the whole product with each row scaled by the
    column's entry of that row: the column's block at t is rows 5000·t … of the column. -/
theorem flushed4_eq (c : Dev nD) (t : Fin cfg2.N) :
    (dat2 (F := Ideal) V c).flushed 4 t = ((cfg2.win 4).blk t).view.read (Elt Ideal)
      (Cert.Gcn.selfTerm (Cert.Gcn.lin (V c main_v43) (V c main_arg4)) (V c main_v12)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz, View.ld_unit_zero (S := S5000x1) hz]
  obtain ⟨-, -, -, -, e20, e21, -, -, e40, e41⟩ := idx_facts t
  funext j
  obtain ⟨p, q, rfl⟩ : ∃ (p : Fin 5000) (q : Fin 128), j = ValueIdx.ix2 p q := ⟨j 0, j 1, ValueIdx.eq_ix2 j⟩
  show k2_pay2 (F := Ideal) (iblk2 V c 0 t) (iblk2 V c 1 t) (iblk2 V c 2 t) (ValueIdx.ix2 p q)
    = Cert.Gcn.selfTerm (Cert.Gcn.lin (V c main_v43) (V c main_arg4)) (V c main_v12) (((cfg2.win 4).blk t).view.emb (ValueIdx.ix2 p q))
  refine (pay2_apply (iblk2 V c 0 t) (iblk2 V c 1 t) (iblk2 V c 2 t) p q).trans ?_
  unfold Cert.Gcn.selfTerm
  congr 1
  · refine blk_lin V c t p q _ ?_ ?_
    · show win2_4.index t (0 : Fin 2) * 5000 + 1 * p.val = t.val * 5000 + p.val; rw [e40]; omega
    · show win2_4.index t (1 : Fin 2) * 128 + 1 * q.val = q.val; rw [e41]; omega
  · show V c main_v12 (((cfg2.win 2).blk t).view.emb (ValueIdx.ix2 p (0 : Fin 1)))
      = V c main_v12 (ValueIdx.ix2 (Cert.Gcn.row (((cfg2.win 4).blk t).view.emb (ValueIdx.ix2 p q))) (0 : Fin 1))
    refine congrArg _ (funext fun a => Fin.ext ?_)
    match a with
    | ⟨0, _⟩ => show win2_2.index t (0 : Fin 2) * 5000 + 1 * p.val = win2_4.index t (0 : Fin 2) * 5000 + 1 * p.val; rw [e20, e40]
    | ⟨1, _⟩ => show win2_2.index t (1 : Fin 2) * 1 + 1 * 0 = 0; rw [e21]

/-! ## The blocks cover the arrays -/

/-- An entry is in point t's block of the product array iff each coordinate is in the block's range. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v44_0).slice (win2_3.rect t)).set ↔ _
  rw [View.set_slice_whole, Rect.mem_set_unit]
  exact Iff.rfl

/-- The same for the scaled array. -/
theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v44_1).slice (win2_4.rect t)).set ↔ _
  rw [View.set_slice_whole, Rect.mem_set_unit]
  exact Iff.rfl

/-- The point whose row block holds row r is r / 5000. -/
abbrev pointOf (i : S100000x128.Idx) : Fin cfg2.N :=
  ⟨(i 0).val / 5000, Nat.lt_of_lt_of_eq (by have h : (i 0).val < 100000 := (i 0).isLt; omega) N_2.symm⟩

/-- Every entry of the product array is in the block of the point of its row. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨-, -, -, -, -, -, e30, e31, -⟩ := idx_facts (pointOf i)
  refine ⟨pointOf i, flush2_3 _, ?_⟩
  rw [mem_blk3]
  intro a
  match a with
  | ⟨0, _⟩ =>
    show win2_3.index (pointOf i) (0 : Fin 2) * 5000 ≤ (i 0).val ∧ (i 0).val < win2_3.index (pointOf i) (0 : Fin 2) * 5000 + 5000
    rw [e30]; show (i 0).val / 5000 * 5000 ≤ (i 0).val ∧ (i 0).val < (i 0).val / 5000 * 5000 + 5000; omega
  | ⟨1, _⟩ =>
    show win2_3.index (pointOf i) (1 : Fin 2) * 128 ≤ (i 1).val ∧ (i 1).val < win2_3.index (pointOf i) (1 : Fin 2) * 128 + 128
    rw [e31]; omega

/-- The same for the scaled array. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨-, -, -, -, -, -, -, -, e40, e41⟩ := idx_facts (pointOf i)
  refine ⟨pointOf i, flush2_4 _, ?_⟩
  rw [mem_blk4]
  intro a
  match a with
  | ⟨0, _⟩ =>
    show win2_4.index (pointOf i) (0 : Fin 2) * 5000 ≤ (i 0).val ∧ (i 0).val < win2_4.index (pointOf i) (0 : Fin 2) * 5000 + 5000
    rw [e40]; show (i 0).val / 5000 * 5000 ≤ (i 0).val ∧ (i 0).val < (i 0).val / 5000 * 5000 + 5000; omega
  | ⟨1, _⟩ =>
    show win2_4.index (pointOf i) (1 : Fin 2) * 128 ≤ (i 1).val ∧ (i 1).val < win2_4.index (pointOf i) (1 : Fin 2) * 128 + 128
    rw [e41]; omega

/-! ## The arrays after the region -/

/-- The product array after the region. -/
theorem h_array2 (c : Dev nD) : (dat2 (F := Ideal) V c).arrAt 3 cfg2.N = Cert.Gcn.lin (V c main_v43) (V c main_arg4) :=
  (dat2 (F := Ideal) V c).arrAt_eq_of_cover 3 (Cert.Gcn.lin (V c main_v43) (V c main_arg4)) (fun t _ => flushed3_eq V c t) cover3

/-- The scaled product array after the region. -/
theorem s_array2 (c : Dev nD) : (dat2 (F := Ideal) V c).arrAt 4 cfg2.N
    = Cert.Gcn.selfTerm (Cert.Gcn.lin (V c main_v43) (V c main_arg4)) (V c main_v12) :=
  (dat2 (F := Ideal) V c).arrAt_eq_of_cover 4 (Cert.Gcn.selfTerm (Cert.Gcn.lin (V c main_v43) (V c main_arg4)) (V c main_v12))
    (fun t _ => flushed4_eq V c t) cover4

end Cert.KernelIdeal.Region2

end
-- ==== Proof.Region3.lean ====
/-
  The second layer's closing region, read as a whole array: the output array holds, entry by entry, the aggregate plus the self-loop term plus the channel's bias, clamped at zero.
-/
import proofs.«106203_j65274912964675_1_alg».proof.Proof.Gen.KernelIdeal.Frame
import proofs.«106203_j65274912964675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)

-- the TensorCore's buffer contents when the region is entered: a parameter, as in the frame
variable (V : (c : Dev nD) → (b : Ref sig .tc) → Buf (Elt Ideal) ((c : Thread nD τ).loc b))

open Idealize.ShloMosaic.ValueIdx

/-- The zero offset of a whole-buffer access. -/
theorem hz : (![0, 0] : Fin 2 → Nat) = fun _ => 0 := funext fun a => by fin_cases a <;> rfl

set_option maxHeartbeats 400000 in
/-- The body's arithmetic at one entry of a block: the two input entries added, the bias of the entry's channel added,
    the sum clamped at zero. -/
theorem pay_apply (b : Vec Ideal S1x128 .f32) (a s : Vec Ideal S5000x128 .f32) (p : Fin 5000) (q : Fin 128) :
    k3_pay1 (F := Ideal) b a s (ix2 p q) = max (a (ix2 p q) + s (ix2 p q) + b (ix2 (0 : Fin 1) q)) 0 := by
  unfold k3_pay1
  simp only [shapeCast_self]
  rw [maximumf_apply, addf_apply, addf_apply, broadcast_apply]
  rw [broadcastTo_apply b broadcasts_S1x128_S5000x128 (ix2 p q) (ix2 (0 : Fin 1) q) (fun a => by
    match a with
    | ⟨0, _⟩ => rfl
    | ⟨1, _⟩ => rfl)]
  rw [show (Scalar.ofBits (F := Ideal) .f32 0x00000000#32) = (0 : EReal) from Ideal.ofBits_zero_f32]

set_option maxHeartbeats 400000 in
/-- The printed index maps over the grid: at point `t` the three row-blocked windows are on row block `t`, column
    block 0, and the bias window is on its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The same at an entry given as one index: the bias is read at the entry's channel. -/
theorem pay_at (b : Vec Ideal S1x128 .f32) (a s : Vec Ideal S5000x128 .f32) (j : S5000x128.Idx) :
    k3_pay1 (F := Ideal) b a s j = max (a j + s j + b (ix2 (0 : Fin 1) (⟨(j 1).val, (j 1).isLt⟩ : Fin 128))) 0 := by
  obtain ⟨p, q, rfl⟩ : ∃ (p : Fin 5000) (q : Fin 128), j = ix2 p q := ⟨j 0, j 1, eq_ix2 j⟩
  exact pay_apply b a s p q

set_option maxHeartbeats 400000 in
/-- What point `t` writes back is block `t` of the closing step of the three arrays as the region finds them. -/
theorem flushed_eq (c : Dev nD) (t : Fin cfg3.N) :
    (dat3 (F := Ideal) V c).flushed 3 t
      = ((cfg3.win 3).blk t).view.read (Elt Ideal) (Cert.Gcn.epi (V c main_v57) (V c main_v44_1) (V c main_v58)) := by
  show (cfg3.win 3).cut (grid3.coords t) ((dat3 V c).after 3 t) = _
  rw [after3_3]
  unfold out3_3
  rw [View.canon_unit_zero hz]
  simp only [View.ld_unit_zero (S := S5000x128) hz, View.ld_unit_zero (S := S1x128) hz]
  obtain ⟨e0, e1, e2, e3, e4, e5, e6, e7⟩ := idx_facts t
  funext j
  refine (pay_at (iblk3 V c 2 t) (iblk3 V c 0 t) (iblk3 V c 1 t) j).trans ?_
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb (ix2 (0 : Fin 1) (⟨(j 1).val, (j 1).isLt⟩ : Fin 128))
      = ix2 (0 : Fin 1) (Cert.Gcn.col (((cfg3.win 3).blk t).view.emb j)) := by
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  have ea : iblk3 V c 0 t j = V c main_v57 (((cfg3.win 3).blk t).view.emb j) := by
    show V c main_v57 (((cfg3.win 0).blk t).view.emb j) = _
    rw [h0]
  have eb : iblk3 V c 1 t j = V c main_v44_1 (((cfg3.win 3).blk t).view.emb j) := by
    show V c main_v44_1 (((cfg3.win 1).blk t).view.emb j) = _
    rw [h1]
  have ec : iblk3 V c 2 t (ix2 (0 : Fin 1) (⟨(j 1).val, (j 1).isLt⟩ : Fin 128))
      = V c main_v58 (ix2 (0 : Fin 1) (Cert.Gcn.col (((cfg3.win 3).blk t).view.emb j))) := by
    show V c main_v58 (((cfg3.win 2).blk t).view.emb (ix2 (0 : Fin 1) (⟨(j 1).val, (j 1).isLt⟩ : Fin 128))) = _
    rw [h2]
  rw [ea, eb, ec]
  rfl

/-- An entry of the output array is in point `t`'s block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v59).slice (win3_3.rect t)).set ↔ _
  rw [View.set_slice_whole, Rect.mem_set_unit]
  exact Iff.rfl

set_option maxHeartbeats 400000 in
/-- Every entry of the output array is written back: row `r` is in the block of point `r / 5000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  obtain ⟨-, -, -, -, -, -, e6, e7⟩ := idx_facts ⟨(i 0).val / 5000, ht⟩
  refine ⟨⟨(i 0).val / 5000, ht⟩, flush3_3 _, ?_⟩
  rw [mem_blk]
  intro a
  match a with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    rw [e7]
    omega

/-- The layer's output array after the region. -/
theorem o_array3 (c : Dev nD) : (dat3 (F := Ideal) V c).arrAt 3 cfg3.N = Cert.Gcn.epi (V c main_v57) (V c main_v44_1) (V c main_v58) :=
  (dat3 (F := Ideal) V c).arrAt_eq_of_cover 3 (Cert.Gcn.epi (V c main_v57) (V c main_v44_1) (V c main_v58))
    (fun t _ => flushed_eq V c t) cover

end Cert.KernelIdeal.Region3

end
-- ==== Proof.KValue.lean ====
/-
  The kernel program's result array as ONE function of the launch memory: the layer `max (A (X·W) + (X·W) ⊙ d² + b, 0)`
  applied twice. Each region's arrays after its run are the specification's functions of what the region found
  (the four region modules); what each region finds is a host stretch's function of the launch memory and of the
  arrays the region before left (the host-stretch module); the result is read at the last boundary.
-/
import proofs.«106203_j65274912964675_1_alg».proof.Proof.KRun
import proofs.«106203_j65274912964675_1_alg».proof.Proof.KHost
import proofs.«106203_j65274912964675_1_alg».proof.Proof.Region0
import proofs.«106203_j65274912964675_1_alg».proof.Proof.Region1
import proofs.«106203_j65274912964675_1_alg».proof.Proof.Region2
import proofs.«106203_j65274912964675_1_alg».proof.Proof.Region3

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat)
open Cert.Gcn Cert.KernelIdeal.Hand

/-- One layer in the kernel program's vocabulary: the specification's closing step over the message passing of the
    dense product, the product's self-loop term and the bias as a row. -/
def layer (ei : (⟨S2x1600000, .i32⟩ : BufTy).Contents (Elt Ideal)) (x : (⟨S100000x128, .f32⟩ : BufTy).Contents (Elt Ideal))
    (w : (⟨S128x128, .f32⟩ : BufTy).Contents (Elt Ideal)) (b : (⟨S128, .f32⟩ : BufTy).Contents (Elt Ideal)) :
    (⟨S100000x128, .f32⟩ : BufTy).Contents (Elt Ideal) :=
  epi (agg ei (lin x w)) (selfTerm (lin x w) (dinvSqCol ei)) (biasRow b)

variable (m : (ℓ : Loc nD τ sig) → Buf (Elt Ideal) ℓ) (ρ : Dev nD → PrngReg)

/-- What the first region leaves in its first output: the dense product of the input features with the first weights. -/
theorem h1_eq (c : Dev nD) : W2 m ρ c (Proc.devRef .tc main_v28_0)
    = lin (m ((c : Thread nD τ).loc main_arg0)) (m ((c : Thread nD τ).loc main_arg2)) := by
  refine (W2_arr m ρ c 3).trans ?_
  rw [Region0.h_array0 (V1 m ρ) c]
  dsimp only [V1]
  rw [W1_arg0, W1_arg2]

/-- What the first region leaves in its second output: that product's self-loop term. -/
theorem s1_eq (c : Dev nD) : W2 m ρ c (Proc.devRef .tc main_v28_1)
    = selfTerm (lin (m ((c : Thread nD τ).loc main_arg0)) (m ((c : Thread nD τ).loc main_arg2)))
        (dinvSqCol (m ((c : Thread nD τ).loc main_arg1))) := by
  refine (W2_arr m ρ c 4).trans ?_
  rw [Region0.s_array0 (V1 m ρ) c]
  dsimp only [V1]
  rw [W1_arg0, W1_arg2, W1_v12]

/-- What the second region leaves: the first layer's output. -/
theorem out1_eq (c : Dev nD) : W4 m ρ c (Proc.devRef .tc main_v43)
    = layer (m ((c : Thread nD τ).loc main_arg1)) (m ((c : Thread nD τ).loc main_arg0))
        (m ((c : Thread nD τ).loc main_arg2)) (m ((c : Thread nD τ).loc main_arg3)) := by
  refine (W4_arr m ρ c 3).trans ?_
  rw [Region1.o_array1 (V3 m ρ) c]
  dsimp only [V3]
  rw [W3_v41, W3_v28_1, W3_v42, h1_eq, s1_eq]
  rfl

/-- What the third region leaves in its first output: the dense product of the first layer's output with the second
    weights. -/
theorem h2_eq (c : Dev nD) : W5 m ρ c (Proc.devRef .tc main_v44_0)
    = lin (layer (m ((c : Thread nD τ).loc main_arg1)) (m ((c : Thread nD τ).loc main_arg0))
        (m ((c : Thread nD τ).loc main_arg2)) (m ((c : Thread nD τ).loc main_arg3))) (m ((c : Thread nD τ).loc main_arg4)) := by
  refine (W5_arr m ρ c 3).trans ?_
  rw [Region2.h_array2 (V4 m ρ) c]
  dsimp only [V4]
  rw [out1_eq, W4_arg4]

/-- What the third region leaves in its second output: that product's self-loop term. -/
theorem s2_eq (c : Dev nD) : W5 m ρ c (Proc.devRef .tc main_v44_1)
    = selfTerm (lin (layer (m ((c : Thread nD τ).loc main_arg1)) (m ((c : Thread nD τ).loc main_arg0))
        (m ((c : Thread nD τ).loc main_arg2)) (m ((c : Thread nD τ).loc main_arg3))) (m ((c : Thread nD τ).loc main_arg4)))
        (dinvSqCol (m ((c : Thread nD τ).loc main_arg1))) := by
  refine (W5_arr m ρ c 4).trans ?_
  rw [Region2.s_array2 (V4 m ρ) c]
  dsimp only [V4]
  rw [out1_eq, W4_arg4, W4_v12]

/-- The result array: the layer applied to the input features and then to its own output. -/
theorem result_eq (c : Dev nD) : W7 m ρ c (Proc.devRef .tc main_v59)
    = layer (m ((c : Thread nD τ).loc main_arg1))
        (layer (m ((c : Thread nD τ).loc main_arg1)) (m ((c : Thread nD τ).loc main_arg0))
          (m ((c : Thread nD τ).loc main_arg2)) (m ((c : Thread nD τ).loc main_arg3)))
        (m ((c : Thread nD τ).loc main_arg4)) (m ((c : Thread nD τ).loc main_arg5)) := by
  refine (W7_arr m ρ c 3).trans ?_
  rw [Region3.o_array3 (V6 m ρ) c]
  dsimp only [V6]
  rw [W6_v57, W6_v44_1, W6_v58, h2_eq, s2_eq]
  rfl

/-- The kernel program's run with its result named: every weakly fair execution terminates, nothing faulting, with the
    result array at the twice-applied layer of the launch memory's arguments and the arguments unchanged. -/
theorem run : θ_run defs (onTc (τ := τ) (main (F := Ideal))) ⟨m, fun _ => 0, ρ⟩ (fun r => ∀ c : Dev nD,
      r.2.mem ((c.tc : Thread nD τ).loc main_v59)
        = layer (m ((c.tc : Thread nD τ).loc main_arg1))
            (layer (m ((c.tc : Thread nD τ).loc main_arg1)) (m ((c.tc : Thread nD τ).loc main_arg0))
              (m ((c.tc : Thread nD τ).loc main_arg2)) (m ((c.tc : Thread nD τ).loc main_arg3)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.Whole.run_result (F := Ideal) m ρ)

end Cert.KernelIdeal.Result

end
-- ==== Proof.RefSide.lean ====
/-
  The reference program read as two applications of ONE layer function of the edge list, a feature array, a weight
  matrix and a bias: `max ((A (X·W) + (X·W) ⊙ d²) + b, 0)`, every operation the host's own. The endpoint rows, the
  index wrap, the inverse square-root degree, the edge coefficient and the message passing `A` are the same
  operations, in the same order, as in the kernel's program.
-/
import proofs.«106203_j65274912964675_1_alg».proof.Defs
import proofs.«106203_j65274912964675_1_alg».proof.Proof.Gen.ReferenceIdeal.Run
import proofs.«106203_j65274912964675_1_alg».proof.Proof.Gen.ReferenceIdeal.Read

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The source endpoint of every edge: row 0 of the edge list. -/
def srcRow (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The destination endpoint of every edge: row 1 of the edge list. -/
def dstRow (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A negative node index counts from the end: add the number of nodes to it. -/
def wrap (v : (⟨S1600000, .i32⟩ : BufTy).Contents (Elt F)) : (⟨S1600000, .i32⟩ : BufTy).Contents (Elt F) :=
  select (cmpi .slt v (broadcastInDim S1600000 ![] bcast_S_S1600000 (constantI S_ 32 0#32)))
    (addi v (broadcastInDim S1600000 ![] bcast_S_S1600000 (constantI S_ 32 100000#32))) v

/-- One over the square root of a node's degree, the self-loop counted: the edges scattered as ones onto their
    destinations, plus one. -/
def dinv (ei : (⟨S2x1600000, .i32⟩ : BufTy).Contents (Elt F)) : (⟨S100000, .f32⟩ : BufTy).Contents (Elt F) :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dstRow ei))
      (broadcastInDim S1600000 ![] bcast_S_S1600000 (constant S_ .f32 0x3F800000#32)))
    (broadcastInDim S100000 ![] bcast_S_S100000 (constant S_ .f32 0x3F800000#32)))

/-- The coefficient of an edge: the product of the two endpoints' inverse square-root degrees. -/
def coef (ei : (⟨S2x1600000, .i32⟩ : BufTy).Contents (Elt F)) : (⟨S1600000, .f32⟩ : BufTy).Contents (Elt F) :=
  mulf
    (Host.gather gather_S100000_S1600000x1_S1600000_n_0_n_n_0_1_1 (dinv ei)
      (broadcastInDim S1600000x1 ![0] bcast_S1600000_S1600000x1_0 (wrap (srcRow ei))))
    (Host.gather gather_S100000_S1600000x1_S1600000_n_0_n_n_0_1_1 (dinv ei)
      (broadcastInDim S1600000x1 ![0] bcast_S1600000_S1600000x1_0 (wrap (dstRow ei))))

/-- The message passing: every edge carries its source's row of `h`, scaled by the edge's coefficient, and the rows
    are added up at the destinations, from zero. -/
def agg (ei : (⟨S2x1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstRow ei))
    (mulf
      (Host.gather gather_S100000x128_S1600000x1_S1600000x128_1_0_n_n_0_1_1128 h
        (broadcastInDim S1600000x1 ![0] bcast_S1600000_S1600000x1_0 (wrap (srcRow ei))))
      (broadcastInDim S1600000x128 ![0, 1] bcast_S1600000x1_S1600000x128_0_1
        (broadcastInDim S1600000x1 ![0] bcast_S1600000_S1600000x1_0 (coef ei))))

/-- One graph-convolution layer as the reference computes it: the dense product, the message passing over it, the
    self-loop term (the product scaled row by row by the squared inverse square-root degree), the bias broadcast
    down the rows, and the clamp at zero. -/
def layer (ei : (⟨S2x1600000, .i32⟩ : BufTy).Contents (Elt F)) (x : (⟨S100000x128, .f32⟩ : BufTy).Contents (Elt F))
    (w : (⟨S128x128, .f32⟩ : BufTy).Contents (Elt F)) (b : (⟨S128, .f32⟩ : BufTy).Contents (Elt F)) :
    (⟨S100000x128, .f32⟩ : BufTy).Contents (Elt F) :=
  maximumf
    (addf
      (addf
        (agg ei (Host.dotGeneral dot_S100000x128_S128x128_S100000x128_1_0_0_1_n_n none x w))
        (mulf (Host.dotGeneral dot_S100000x128_S128x128_S100000x128_1_0_0_1_n_n none x w)
          (broadcastInDim S100000x128 ![0, 1] bcast_S100000x1_S100000x128_0_1
            (broadcastInDim S100000x1 ![0] bcast_S100000_S100000x1_0 (mulf (dinv ei) (dinv ei))))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

set_option maxRecDepth 8192 in
/-- The reference's result is the layer applied twice: to the input features, then to its own output. -/
theorem res_eq_layers (m : (ℓ : Loc nD τ sig) → Buf (Elt F) ℓ) (c : Dev nD) :
    Cert.ReferenceIdeal.Value.res_main_v93 m c
      = layer (m ((c.tc : Thread nD τ).loc main_arg1))
          (layer (m ((c.tc : Thread nD τ).loc main_arg1)) (m ((c.tc : Thread nD τ).loc main_arg0))
            (m ((c.tc : Thread nD τ).loc main_arg2)) (m ((c.tc : Thread nD τ).loc main_arg3)))
          (m ((c.tc : Thread nD τ).loc main_arg4)) (m ((c.tc : Thread nD τ).loc main_arg5)) := by
  unfold Cert.ReferenceIdeal.Value.res_main_v93 layer agg coef dinv wrap srcRow dstRow
  rfl

end Cert.ReferenceIdeal.Hand

end
-- ==== Proof.Bridge.lean ====
/-
  The two programs' vocabularies meet here. The reference's layer function, read entry by entry, is the specification's
  `max (A (X·W) + (X·W) ⊙ d² + b, 0)` over the kernel program's own message passing `A`, squared inverse square-root
  degree column and bias row: the host's dense product is the sum over k of X(n, k)·W(k, j); the message passing and the
  degree are the same operations in both programs; a per-row scalar broadcast along the channels, and the kernel
  program's reshape of it to a column, both read the scalar of the entry's row; a bias broadcast down the rows, and
  its reshape to a one-row array, both read the bias of the entry's channel; the clamp's constant is zero.
-/
import proofs.«106203_j65274912964675_1_alg».proof.Proof.RefSide
import proofs.«106203_j65274912964675_1_alg».proof.Proof.KHost
import proofs.«106203_j65274912964675_1_alg».proof.Proof.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx Cert.Gcn

/-! ## The shared operations are the same functions -/

section Same
variable {F : FTy → Type} [FloatOps F]

/-- The inverse square-root degree is computed by the same operations in both programs. -/
theorem dinv_same (ei : (⟨Cert.ReferenceIdeal.S2x1600000, .i32⟩ : BufTy).Contents (Elt F)) :
    Cert.ReferenceIdeal.Hand.dinv ei = Cert.KernelIdeal.Hand.dinv ei := rfl

/-- The message passing is computed by the same operations in both programs. -/
theorem agg_same (ei : (⟨Cert.ReferenceIdeal.S2x1600000, .i32⟩ : BufTy).Contents (Elt F))
    (h : (⟨Cert.ReferenceIdeal.S100000x128, .f32⟩ : BufTy).Contents (Elt F)) :
    Cert.ReferenceIdeal.Hand.agg ei h = Cert.KernelIdeal.Hand.agg ei h := rfl

end Same

/-! ## The host's dense product, entry by entry -/

/-- The reference's `dot_general` is the sum over k of X(n, k)·W(k, j). -/
theorem dot_eq_lin (x : (⟨Cert.ReferenceIdeal.S100000x128, .f32⟩ : BufTy).Contents (Elt Ideal))
    (w : (⟨Cert.ReferenceIdeal.S128x128, .f32⟩ : BufTy).Contents (Elt Ideal)) :
    Host.dotGeneral (F := Ideal) (φ₁ := .f32) (φ₂ := .f32) Cert.ReferenceIdeal.dot_S100000x128_S128x128_S100000x128_1_0_0_1_n_n none x w = lin x w := by
  funext i
  refine (Cert.ReferenceIdeal.Read.val_main_v4_apply x w i).trans ?_
  unfold lin
  refine Finset.sum_congr rfl fun k _ => ?_
  have el : Cert.ReferenceIdeal.Read.lidx_main_v4 i k = ix2 (row i) k := by
    funext a; match a with | ⟨0, _⟩ => rfl | ⟨1, _⟩ => rfl
  have er : Cert.ReferenceIdeal.Read.ridx_main_v4 i k = ix2 k (col i) := by
    funext a; match a with | ⟨0, _⟩ => rfl | ⟨1, _⟩ => rfl
  rw [el, er]

/-! ## Broadcasts and reshapes of a per-row scalar and of a per-channel bias -/

section Layout
variable {α : Type}

/-- A per-node scalar broadcast to a column and then along the channels reads, at an entry, the scalar of its row. -/
theorem bcast_rows (y : Cert.ReferenceIdeal.S100000.Idx → α) (i : SNxD.Idx) :
    broadcastInDim Cert.ReferenceIdeal.S100000x128 ![0, 1] Cert.ReferenceIdeal.Gen.bcast_S100000x1_S100000x128_0_1
      (broadcastInDim Cert.ReferenceIdeal.S100000x1 ![0] Cert.ReferenceIdeal.Gen.bcast_S100000_S100000x1_0 y) i = y (ix1 (row i)) := by
  refine (broadcastInDim_apply _ Cert.ReferenceIdeal.Gen.bcast_S100000x1_S100000x128_0_1 _ i (ix2 (row i) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  exact broadcastInDim_apply _ Cert.ReferenceIdeal.Gen.bcast_S100000_S100000x1_0 y (ix2 (row i) (0 : Fin 1)) (ix1 (row i)) (fun a => match a with
    | ⟨0, _⟩ => by show (i 0).val = if (100000 : Nat) = 1 then 0 else (i 0).val; rw [if_neg (by decide)])

/-- The same scalar reshaped to a column reads, at row n, the scalar of node n. -/
theorem column_apply (y : Cert.KernelIdeal.S100000.Idx → α) (n : Fin 100000) :
    shapeCast Cert.KernelIdeal.S100000x1 y Cert.KernelIdeal.Gen.shapeCasts_S100000_S100000x1 (ix2 n (0 : Fin 1)) = y (ix1 n) :=
  shapeCast_apply y Cert.KernelIdeal.Gen.shapeCasts_S100000_S100000x1 (ix2 n (0 : Fin 1)) (ix1 n)
    (by rewrite [Shape.rowMajor_val_two, Shape.rowMajor_val_one]; show n.val = n.val * 1 + 0; omega)

/-- A bias broadcast to a one-row array and then down the rows reads, at an entry, the bias of its channel. -/
theorem bcast_cols (b : Cert.ReferenceIdeal.S128.Idx → α) (i : SNxD.Idx) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) i = b (ix1 (col i)) := by
  refine (broadcastInDim_apply _ Cert.ReferenceIdeal.Gen.bcast_S1x128_S100000x128_0_1 _ i (ix2 (0 : Fin 1) (col i)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans ?_
  exact broadcastInDim_apply _ Cert.ReferenceIdeal.Gen.bcast_S128_S1x128_1 b (ix2 (0 : Fin 1) (col i)) (ix1 (col i)) (fun a => match a with
    | ⟨0, _⟩ => by show (i 1).val = if (128 : Nat) = 1 then 0 else (i 1).val; rw [if_neg (by decide)])

/-- The same bias reshaped to a one-row array reads, at channel j, the bias of channel j. -/
theorem biasRow_apply (b : Cert.KernelIdeal.S128.Idx → α) (j : Fin 128) :
    shapeCast Cert.KernelIdeal.S1x128 b Cert.KernelIdeal.Gen.shapeCasts_S128_S1x128 (ix2 (0 : Fin 1) j) = b (ix1 j) :=
  shapeCast_apply b Cert.KernelIdeal.Gen.shapeCasts_S128_S1x128 (ix2 (0 : Fin 1) j) (ix1 j)
    (by rewrite [Shape.rowMajor_val_two, Shape.rowMajor_val_one]; show j.val = 0 * 128 + j.val; omega)

end Layout

/-- The clamp's constant, broadcast to the feature shape, is zero at every entry. -/
theorem zero_apply (i : SNxD.Idx) :
    broadcastInDim Cert.ReferenceIdeal.S100000x128 ![] Cert.ReferenceIdeal.Gen.bcast_S_S100000x128
      (constant (F := Ideal) Cert.ReferenceIdeal.S_ .f32 0x00000000#32) i = 0 := by
  refine (broadcastInDim_apply _ Cert.ReferenceIdeal.Gen.bcast_S_S100000x128 _ i ix0 (fun a => a.elim0)).trans ?_
  exact Ideal.ofBits_zero_f32

/-! ## The reference's layer is the specification's -/

/-- Entry by entry the reference's layer is the aggregate of the dense product, plus the product's row scaled by
    the squared inverse square-root degree of its node, plus the channel's bias, clamped at zero. -/
theorem layer_eq (ei : (⟨Cert.ReferenceIdeal.S2x1600000, .i32⟩ : BufTy).Contents (Elt Ideal))
    (x : (⟨Cert.ReferenceIdeal.S100000x128, .f32⟩ : BufTy).Contents (Elt Ideal))
    (w : (⟨Cert.ReferenceIdeal.S128x128, .f32⟩ : BufTy).Contents (Elt Ideal))
    (b : (⟨Cert.ReferenceIdeal.S128, .f32⟩ : BufTy).Contents (Elt Ideal)) :
    Cert.ReferenceIdeal.Hand.layer ei x w b
      = epi (Cert.KernelIdeal.Hand.agg ei (lin x w)) (selfTerm (lin x w) (Cert.KernelIdeal.Hand.dinvSqCol ei))
          (Cert.KernelIdeal.Hand.biasRow b) := by
  unfold Cert.ReferenceIdeal.Hand.layer
  rw [dot_eq_lin, agg_same, dinv_same]
  funext i
  rw [maximumf_apply, addf_apply, addf_apply, mulf_apply, bcast_rows, bcast_cols, zero_apply]
  unfold epi selfTerm Cert.KernelIdeal.Hand.dinvSqCol Cert.KernelIdeal.Hand.biasRow
  rw [column_apply, biasRow_apply]

end Cert.Bridge

end
-- ==== Proof.lean ====
/-
  The certificate: the Pallas two-layer graph convolution (four regions — dense product with its self-loop term, then
  aggregate + self-loop term + bias clamped at zero, per layer — among host gathers and scatter-adds over the edges)
  equals its jnp reference over the extended reals. Both programs compute, layer by layer,
  `max ((A (X·W) + (X·W) ⊙ d²) + b, 0)` with the same grouping of the two sums, the same message passing `A` and the
  same degree normalisation `d`, so no algebraic law beyond reading each side entry by entry is needed and the
  precondition is never opened. The frames of the two kernel programs are the generated ones; the reference's frame is
  its generated run with the result dropped; the ideal pass rewrote nothing.
-/
import proofs.«106203_j65274912964675_1_alg».proof.Defs
import proofs.«106203_j65274912964675_1_alg».proof.Proof.Gen.Kernel
import proofs.«106203_j65274912964675_1_alg».proof.Proof.Gen.Kernel.Frame
import proofs.«106203_j65274912964675_1_alg».proof.Proof.Gen.KernelIdeal
import proofs.«106203_j65274912964675_1_alg».proof.Proof.Gen.KernelIdeal.Frame
import proofs.«106203_j65274912964675_1_alg».proof.Proof.Gen.ReferenceIdeal
import proofs.«106203_j65274912964675_1_alg».proof.Proof.Gen.ReferenceIdeal.Run
import proofs.«106203_j65274912964675_1_alg».proof.Proof.Gen.Pre_finite_inputs
import proofs.«106203_j65274912964675_1_alg».proof.Proof.KValue
import proofs.«106203_j65274912964675_1_alg».proof.Proof.RefSide
import proofs.«106203_j65274912964675_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer applied twice to them: the kernel
    program's result array is that function in its own vocabulary, the reference's result is its own layer function
    applied twice, and the two layer functions are one function. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Hand.res_eq_layers, e0, e1, e2, e3, e4, e5, Cert.Bridge.layer_eq, Cert.Bridge.layer_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
